-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4096x1024 .f32) (main_arg2 : FVec F S4096 .f32) (main_arg3 : FVec F S1024x4096 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 14
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S16384x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S1x4096, .f32⟩
  | .hbm, ⟨11, _⟩ => ⟨S1x1024, .f32⟩
  | .hbm, ⟨12, _⟩ => ⟨S16384x1024, .f32⟩
  | .hbm, ⟨13, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S16384x1024_S4x4096x1024 : S16384x1024.ShapeCasts S4x4096x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x1024, .f32⟩
  | .hbm, ⟨13, _⟩ => ⟨S1x1x1024, .f32⟩
  | .hbm, ⟨14, _⟩ => ⟨S4x4096x1024, .f32⟩
  | .hbm, ⟨15, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S4096x1024_S4x4096x4096_2_1_01_0_n_n_wf : DotDims.WF S4x4096x1024 S4096x1024 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.FfnSpec.lean ====
/-
  A two-layer feed-forward block as ONE function of its five arrays.

  The input x is [4, 4096, 1024] (batch, position, feature); the weights are stored [out, in]:
  W1 is [4096, 1024], W2 is [1024, 4096]; the biases b1 [4096] and b2 [1024]. For the token (b, s):

      hidden[b, s, f] = max (∑ k < 1024, x[b, s, k] · W1[f, k] + b1[f]) 0            (f < 4096)
      out[b, s, h]    = ∑ f < 4096, hidden[b, s, f] · W2[h, f] + b2[h]               (h < 1024)

  on the extended reals. The rectifier's zero is kept as the word both programs print; nothing here evaluates it,
  and nothing here needs the inputs finite: both programs compute these very sums, in this very grouping.
-/
import Idealize.ShloMosaic.Lib.ValueIdx
import Idealize.ShloMosaic.PureOps.Ideal

noncomputable section

namespace Cert.Ffn

open Idealize.ShloMosaic Idealize.ShloMosaic.ValueIdx

/-- The rectifier's threshold: the word 0x00000000 read as an extended real. -/
abbrev zero : EReal := Ideal.ofBits .f32 0x00000000#32

/-- The hidden activation of token (b, s) at hidden feature f: the first layer's affine map, rectified. -/
def hidden (x : (⟨3, ![4, 4096, 1024]⟩ : Shape).Idx → EReal) (W1 : (⟨2, ![4096, 1024]⟩ : Shape).Idx → EReal)
    (b1 : (⟨1, ![4096]⟩ : Shape).Idx → EReal) (b : Fin 4) (s : Fin 4096) (f : Fin 4096) : EReal :=
  max (∑ k : Fin 1024, x (ix3 b s k) * W1 (ix2 f k) + b1 (ix1 f)) zero

/-- The block's result at token (b, s) and output feature h: the second layer's affine map of the hidden activations. -/
def outAt (x : (⟨3, ![4, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) (b : Fin 4) (s : Fin 4096) (h : Fin 1024) : EReal :=
  ∑ f : Fin 4096, hidden x W1 b1 b s f * W2 (ix2 h f) + b2 (ix1 h)

/-- The whole result array. -/
def out (x : (⟨3, ![4, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨3, ![4, 4096, 1024]⟩ : Shape).Idx → EReal :=
  fun i => outAt x W1 b1 W2 b2 (i 0) (i 1) (i 2)

theorem out_ix3 (x : (⟨3, ![4, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) (b : Fin 4) (s : Fin 4096) (h : Fin 1024) :
    out x W1 b1 W2 b2 (ix3 b s h) = outAt x W1 b1 W2 b2 b s h := rfl

end Cert.Ffn

end
-- ==== Proof.RefIsSpec.lean ====
/-
  The reference computes the feed-forward block's function.

  Read one operation at a time, the reference's result at (b, s, h) is: the second product's sum over f of
  (the rectified first affine map at (b, s, f)) times W2[h, f], plus b2[h]; and the first affine map at (b, s, f) is the
  first product's sum over k of x[b, s, k] · W1[f, k], plus b1[f]. The two contractions run over the last axis of each
  operand, which is how the weights' [out, in] storage is read; the biases are broadcast along the last axis.
-/
import proofs.«118304_j70214125355099_1_alg».proof.Proof.Gen.ReferenceIdeal.Read
import proofs.«118304_j70214125355099_1_alg».proof.Proof.FfnSpec

noncomputable section

namespace Cert.ReferenceIdeal.RefValue

open Cert.ReferenceIdeal Cert.ReferenceIdeal.Read Idealize.ShloMosaic Idealize.ShloMosaic.ValueIdx

/-- The first product reads x at (b, s, k). -/
theorem lidx0 (b : Fin 4) (s : Fin 4096) (f : Fin 4096) (k : Fin 1024) : lidx_main_v0 (ix3 b s f) k = ix3 b s k :=
  funext fun a => Fin.ext (by match a with | ⟨0, _⟩ => rfl | ⟨1, _⟩ => rfl | ⟨2, _⟩ => rfl)
/-- and W1 at (f, k). -/
theorem ridx0 (b : Fin 4) (s : Fin 4096) (f : Fin 4096) (k : Fin 1024) : ridx_main_v0 (ix3 b s f) k = ix2 f k :=
  funext fun a => Fin.ext (by match a with | ⟨0, _⟩ => rfl | ⟨1, _⟩ => rfl)
/-- The first bias is read at f. -/
theorem bidx1 (b : Fin 4) (s : Fin 4096) (f : Fin 4096) : idx_main_v1 (idx_main_v2 (ix3 b s f)) = ix1 f :=
  funext fun a => Fin.ext (by match a with | ⟨0, _⟩ => rfl)
/-- The second product reads the hidden activations at (b, s, f). -/
theorem lidx5 (b : Fin 4) (s : Fin 4096) (h : Fin 1024) (f : Fin 4096) : lidx_main_v5 (ix3 b s h) f = ix3 b s f :=
  funext fun a => Fin.ext (by match a with | ⟨0, _⟩ => rfl | ⟨1, _⟩ => rfl | ⟨2, _⟩ => rfl)
/-- and W2 at (h, f). -/
theorem ridx5 (b : Fin 4) (s : Fin 4096) (h : Fin 1024) (f : Fin 4096) : ridx_main_v5 (ix3 b s h) f = ix2 h f :=
  funext fun a => Fin.ext (by match a with | ⟨0, _⟩ => rfl | ⟨1, _⟩ => rfl)
/-- The second bias is read at h. -/
theorem bidx6 (b : Fin 4) (s : Fin 4096) (h : Fin 1024) : idx_main_v6 (idx_main_v7 (ix3 b s h)) = ix1 h :=
  funext fun a => Fin.ext (by match a with | ⟨0, _⟩ => rfl)

/-- The rectified first layer of the reference is the block's hidden activation. -/
theorem hidden_eq (x0 : (⟨S4x4096x1024, .f32⟩ : BufTy).Contents (Elt Ideal)) (x1 : (⟨S4096x1024, .f32⟩ : BufTy).Contents (Elt Ideal))
    (x2 : (⟨S4096, .f32⟩ : BufTy).Contents (Elt Ideal)) (b : Fin 4) (s : Fin 4096) (f : Fin 4096) :
    val_main_v4 (F := Ideal) x0 x1 x2 (ix3 b s f) = Cert.Ffn.hidden x0 x1 x2 b s f := by
  rw [val_main_v4_apply, val_main_v3_apply, val_main_v0_apply, val_main_v2_apply, val_main_v1_apply, val_main_call0_v0_apply,
    val_main_call0_cst_apply, bidx1]
  simp only [lidx0, ridx0]
  rfl

/-- The reference's result array is the block's function of the five arrays. -/
theorem result_eq (x0 : (⟨S4x4096x1024, .f32⟩ : BufTy).Contents (Elt Ideal)) (x1 : (⟨S4096x1024, .f32⟩ : BufTy).Contents (Elt Ideal))
    (x2 : (⟨S4096, .f32⟩ : BufTy).Contents (Elt Ideal)) (x3 : (⟨S1024x4096, .f32⟩ : BufTy).Contents (Elt Ideal))
    (x4 : (⟨S1024, .f32⟩ : BufTy).Contents (Elt Ideal)) :
    val_main_v8 (F := Ideal) x0 x1 x2 x3 x4 = Cert.Ffn.out x0 x1 x2 x3 x4 := by
  funext i
  obtain ⟨b, s, h, rfl⟩ : ∃ (b : Fin 4) (s : Fin 4096) (h : Fin 1024), i = ix3 b s h := ⟨i 0, i 1, i 2, eq_ix3 i⟩
  rw [val_main_v8_apply, val_main_v5_apply, val_main_v7_apply, val_main_v6_apply, bidx6, Cert.Ffn.out_ix3]
  simp only [lidx5, ridx5, hidden_eq]
  rfl

end Cert.ReferenceIdeal.RefValue

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBody.lean ====
/-
  One tile of the kernel, at an entry.

  The body holds a tile of 256 rows of the flattened input (x0, [256, 1024]), both weight matrices already transposed
  (x1 is [1024, 4096], x3 is [4096, 1024]) and the two biases as rows (x2 is [1, 4096], x4 is [1, 1024]). Changes of
  float format are the identity at the ideal values, a product into a zero accumulator is the exact sum over the
  contracted index, and a row broadcast over the tile reads that row. So the stored tile holds, at (p, q),

      ∑ f < 4096, max (∑ k < 1024, x0[p, k] · x1[k, f] + x2[0, f]) 0 · x3[f, q] + x4[0, q].
-/
import proofs.«118304_j70214125355099_1_alg».proof.Proof.Gen.KernelIdeal.Skeleton
import proofs.«118304_j70214125355099_1_alg».proof.Proof.LibPlainDot
import proofs.«118304_j70214125355099_1_alg».proof.Proof.FfnSpec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- Both products are plain matrix products: rows from the left operand, columns from the right, one contracted axis. -/
theorem plain1 : Cert.PlainDot.Plain dot_S256x1024_S1024x4096_S256x4096_1_0_0_1_n_n := ⟨rfl, rfl, rfl, rfl, rfl, rfl⟩
theorem plain2 : Cert.PlainDot.Plain dot_S256x4096_S4096x1024_S256x1024_1_0_0_1_n_n := ⟨rfl, rfl, rfl, rfl, rfl, rfl⟩

/-- The tile's hidden activation at (p, f). -/
def hid (x0 : FVec Ideal S256x1024 .f32) (x1 : FVec Ideal S1024x4096 .bf16) (x2 : FVec Ideal S1x4096 .f32) (p : Fin 256) (f : Fin 4096) : EReal :=
  max (∑ k : Fin 1024, x0 (ix2 p k) * x1 (ix2 k f) + x2 (ix2 (0 : Fin 1) f)) Cert.Ffn.zero

/-- The stored tile at (p, q). -/
theorem pay_apply (x0 : FVec Ideal S256x1024 .f32) (x1 : FVec Ideal S1024x4096 .bf16) (x2 : FVec Ideal S1x4096 .f32)
    (x3 : FVec Ideal S4096x1024 .bf16) (x4 : FVec Ideal S1x1024 .f32) (p : Fin 256) (q : Fin 1024) :
    k0_pay1 (F := Ideal) x0 x1 x2 x3 x4 (ix2 p q)
      = ∑ f : Fin 4096, hid x0 x1 x2 p f * x3 (ix2 f q) + x4 (ix2 (0 : Fin 1) q) := by
  unfold k0_pay1
  simp only [shapeCast_self]
  rw [addf_apply, Cert.PlainDot.matmul_zero_apply plain2 rfl rfl, broadcastTo_1b_ab_apply]
  refine congrArg (· + x4 (ix2 (0 : Fin 1) q)) (Finset.sum_congr rfl fun f _ => ?_)
  rw [truncf_apply, maximumf_apply, addf_apply, Cert.PlainDot.matmul_zero_apply plain1 rfl rfl, broadcastTo_1b_ab_apply, broadcast_apply]
  rfl

/-- The stored tile is the block's function, once each operand of the body is known to be the matching piece of the five
    arrays: the tile's row p is row r of the flattened input, i.e. the token (r / 4096, r % 4096); the weight operands are
    the transposes of W1 and W2; the bias operands are b1 and b2 as rows. -/
theorem tile_eq (x0 : FVec Ideal S256x1024 .f32) (x1 : FVec Ideal S1024x4096 .bf16) (x2 : FVec Ideal S1x4096 .f32)
    (x3 : FVec Ideal S4096x1024 .bf16) (x4 : FVec Ideal S1x1024 .f32)
    (x : (⟨3, ![4, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) (p : Fin 256) (q : Fin 1024) (b : Fin 4) (s : Fin 4096)
    (h0 : ∀ k : Fin 1024, x0 (ix2 p k) = x (ix3 b s k))
    (h1 : ∀ (k : Fin 1024) (f : Fin 4096), x1 (ix2 k f) = W1 (ix2 f k))
    (h2 : ∀ f : Fin 4096, x2 (ix2 (0 : Fin 1) f) = b1 (ix1 f))
    (h3 : ∀ (f : Fin 4096) (q : Fin 1024), x3 (ix2 f q) = W2 (ix2 q f))
    (h4 : ∀ q : Fin 1024, x4 (ix2 (0 : Fin 1) q) = b2 (ix1 q)) :
    k0_pay1 (F := Ideal) x0 x1 x2 x3 x4 (ix2 p q) = Cert.Ffn.outAt x W1 b1 W2 b2 b s q := by
  rw [pay_apply, h4]
  unfold Cert.Ffn.outAt
  refine congrArg (· + b2 (ix1 q)) (Finset.sum_congr rfl fun f _ => ?_)
  rw [h3]
  refine congrArg (· * W2 (ix2 q f)) ?_
  unfold hid Cert.Ffn.hidden
  rw [h2]
  refine congrArg (fun z => max (z + b1 (ix1 f)) Cert.Ffn.zero) (Finset.sum_congr rfl fun k _ => ?_)
  rw [h0, h1]

end Cert.KernelIdeal.Body

end
-- ==== Proof.KernelArrays.lean ====
/-
  The arrays the kernel's region finds.

  Before the region the program flattens x to [16384, 1024] (row r is the token (r / 4096, r % 4096): the flattening keeps
  the row-major position), transposes both weight matrices (the change of float format after each is the identity at the
  ideal values) and views each bias as one row. Each is read here at an entry.
-/
import proofs.«118304_j70214125355099_1_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The flattened input, as the operation that made it. -/
theorem xflat_eq (c : Dev nD) : (V m c main_v0 : S16384x1024.Idx → EReal)
    = shapeCast S16384x1024 (m ((c : Thread nD τ).loc main_arg0)) shapeCasts_S4x4096x1024_S16384x1024 := by
  show StableHlo.after hostOps0 (fun b => m (c, b)) (Proc.devRef .tc main_v0) = _
  after_results <;> rfl

/-- The first weight matrix transposed. -/
theorem w1t_eq (c : Dev nD) : (V m c main_v2 : S1024x4096.Idx → EReal)
    = truncf (F := Ideal) .bf16 (transpose S1024x4096 [1, 0] (m ((c : Thread nD τ).loc main_arg1)) transposes_S4096x1024_S1024x4096_1_0) bitsLt_bf16_f32 := by
  show StableHlo.after hostOps0 (fun b => m (c, b)) (Proc.devRef .tc main_v2) = _
  after_results <;> rfl

/-- The second weight matrix transposed. -/
theorem w2t_eq (c : Dev nD) : (V m c main_v4 : S4096x1024.Idx → EReal)
    = truncf (F := Ideal) .bf16 (transpose S4096x1024 [1, 0] (m ((c : Thread nD τ).loc main_arg3)) transposes_S1024x4096_S4096x1024_1_0) bitsLt_bf16_f32 := by
  show StableHlo.after hostOps0 (fun b => m (c, b)) (Proc.devRef .tc main_v4) = _
  after_results <;> rfl

/-- The first bias as a row. -/
theorem b1row_eq (c : Dev nD) : (V m c main_v5 : S1x4096.Idx → EReal)
    = shapeCast S1x4096 (m ((c : Thread nD τ).loc main_arg2)) shapeCasts_S4096_S1x4096 := by
  show StableHlo.after hostOps0 (fun b => m (c, b)) (Proc.devRef .tc main_v5) = _
  after_results <;> rfl

/-- The second bias as a row. -/
theorem b2row_eq (c : Dev nD) : (V m c main_v6 : S1x1024.Idx → EReal)
    = shapeCast S1x1024 (m ((c : Thread nD τ).loc main_arg4)) shapeCasts_S1024_S1x1024 := by
  show StableHlo.after hostOps0 (fun b => m (c, b)) (Proc.devRef .tc main_v6) = _
  after_results <;> rfl

/-- Row b · 4096 + s of the flattened input is the token (b, s). -/
theorem xflat_apply (c : Dev nD) (r : Fin 16384) (k : Fin 1024) (b : Fin 4) (s : Fin 4096) (hr : r.val = b.val * 4096 + s.val) :
    (V m c main_v0 : S16384x1024.Idx → EReal) (ix2 r k) = m ((c : Thread nD τ).loc main_arg0) (ix3 b s k) := by
  rw [xflat_eq]
  refine shapeCast_apply _ _ _ _ ?_
  show (S4x4096x1024.rowMajor (ix3 b s k)).val = (S16384x1024.rowMajor (ix2 r k)).val
  rw [Shape.rowMajor_val_three, Shape.rowMajor_val_two]
  show (b.val * 4096 + s.val) * 1024 + k.val = r.val * 1024 + k.val
  rw [hr]

/-- The transposed first weight matrix at (k, f) is W1 at (f, k). -/
theorem w1t_apply (c : Dev nD) (k : Fin 1024) (f : Fin 4096) :
    (V m c main_v2 : S1024x4096.Idx → EReal) (ix2 k f) = m ((c : Thread nD τ).loc main_arg1) (ix2 f k) := by
  rw [w1t_eq, truncf_apply]
  exact transpose_ix2_apply _ _ k f

/-- The transposed second weight matrix at (f, q) is W2 at (q, f). -/
theorem w2t_apply (c : Dev nD) (f : Fin 4096) (q : Fin 1024) :
    (V m c main_v4 : S4096x1024.Idx → EReal) (ix2 f q) = m ((c : Thread nD τ).loc main_arg3) (ix2 q f) := by
  rw [w2t_eq, truncf_apply]
  exact transpose_ix2_apply _ _ f q

/-- The first bias row at (0, f) is b1 at f. -/
theorem b1row_apply (c : Dev nD) (f : Fin 4096) :
    (V m c main_v5 : S1x4096.Idx → EReal) (ix2 (0 : Fin 1) f) = m ((c : Thread nD τ).loc main_arg2) (ix1 f) := by
  rw [b1row_eq]
  exact shapeCast_a_1a_apply _ _ 0 f

/-- The second bias row at (0, q) is b2 at q. -/
theorem b2row_apply (c : Dev nD) (q : Fin 1024) :
    (V m c main_v6 : S1x1024.Idx → EReal) (ix2 (0 : Fin 1) q) = m ((c : Thread nD τ).loc main_arg4) (ix1 q) := by
  rw [b2row_eq]
  exact shapeCast_a_1a_apply _ _ 0 q

end Cert.KernelIdeal.Arrays

end
-- ==== Proof.KernelValue.lean ====
/-
  What the kernel's program leaves in its result.

  The region's grid has 64 points; point t works on rows 256 t … 256 t + 255 of the flattened input and writes the same
  rows of the flattened output, with both transposed weight matrices and both bias rows whole at every point. By the
  tile lemma each written tile is the matching block of ONE function of the five arrays — at row r and column q the
  feed-forward block's value for the token (r / 4096, r % 4096) at feature q. The 64 tiles cover the flattened output, so
  after the region it IS that function; the last operation folds the rows back to [4, 4096, 1024] keeping the row-major
  position, so the result at (b, s, h) reads row b · 4096 + s, whose token is (b, s).
-/
import proofs.«118304_j70214125355099_1_alg».proof.Proof.Gen.KernelIdeal.Frame
import proofs.«118304_j70214125355099_1_alg».proof.Proof.KernelBody
import proofs.«118304_j70214125355099_1_alg».proof.Proof.KernelArrays
import Idealize.ShloMosaic.Lib.Pipeline.Value
import Idealize.ShloMosaic.Lib.StableHlo.Run

noncomputable section

namespace Cert.KernelIdeal.FfnValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The flattened output as one function of the five arrays: row r is the token (r / 4096, r % 4096). -/
def flat (c : Dev nD) : S16384x1024.Idx → EReal := fun j =>
  Cert.Ffn.outAt (m ((c : Thread nD τ).loc main_arg0)) (m ((c : Thread nD τ).loc main_arg1)) (m ((c : Thread nD τ).loc main_arg2))
    (m ((c : Thread nD τ).loc main_arg3)) (m ((c : Thread nD τ).loc main_arg4))
    ⟨(j 0).val / 4096, by have h : (j 0).val < 16384 := (j 0).isLt; omega⟩ ⟨(j 0).val % 4096, Nat.mod_lt _ (by decide)⟩ (j 1)

/-- The printed index maps over the grid: the input's and the output's row tiles move with the point, everything else stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The flattened output's function at row b · 4096 + s is the block's value for the token (b, s). -/
theorem flat_at (c : Dev nD) (r : Fin 16384) (q : Fin 1024) (b : Fin 4) (s : Fin 4096) (hr : r.val = b.val * 4096 + s.val) :
    flat m c (ix2 r q)
      = Cert.Ffn.outAt (m ((c : Thread nD τ).loc main_arg0)) (m ((c : Thread nD τ).loc main_arg1)) (m ((c : Thread nD τ).loc main_arg2))
          (m ((c : Thread nD τ).loc main_arg3)) (m ((c : Thread nD τ).loc main_arg4)) b s q := by
  have hs := s.isLt
  have hr' := r.isLt
  have eb : (⟨r.val / 4096, by omega⟩ : Fin 4) = b := Fin.ext (by show r.val / 4096 = b.val; omega)
  have es : (⟨r.val % 4096, Nat.mod_lt _ (by decide)⟩ : Fin 4096) = s := Fin.ext (by show r.val % 4096 = s.val; omega)
  show Cert.Ffn.outAt _ _ _ _ _ (⟨r.val / 4096, _⟩ : Fin 4) (⟨r.val % 4096, _⟩ : Fin 4096) q = _
  rw [eb, es]

/-- A grid point is one of 64. -/
theorem point_lt (t : Fin cfg0.N) : t.val < 64 := by
  have h : t.val < grid0.N := t.isLt
  have hN : grid0.N = 64 := N_0
  omega

/-- The tile's row p at point t is row 256 t + p of the flattened arrays. -/
theorem emb0 (t : Fin cfg0.N) (p : Fin 256) (k : Fin 1024) :
    ((cfg0.win 0).blk t).view.emb (ix2 p k) = ix2 (⟨t.val * 256 + p.val, by have := point_lt t; have := p.isLt; omega⟩ : Fin 16384) k := by
  obtain ⟨e0, e1, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega
theorem emb5 (t : Fin cfg0.N) (p : Fin 256) (q : Fin 1024) :
    ((cfg0.win 5).blk t).view.emb (ix2 p q) = ix2 (⟨t.val * 256 + p.val, by have := point_lt t; have := p.isLt; omega⟩ : Fin 16384) q := by
  obtain ⟨-, -, -, -, -, -, -, -, -, -, e0, e1⟩ := idx_facts t
  funext a; apply Fin.ext
  match a with
  | ⟨0, _⟩ => show win0_5.index t (0 : Fin 2) * 256 + 1 * p.val = t.val * 256 + p.val; omega
  | ⟨1, _⟩ => show win0_5.index t (1 : Fin 2) * 1024 + 1 * q.val = q.val; omega
/-- The weight and bias operands are whole at every point. -/
theorem emb1 (t : Fin cfg0.N) (k : Fin 1024) (f : Fin 4096) : ((cfg0.win 1).blk t).view.emb (ix2 k f) = ix2 k f := by
  obtain ⟨-, -, e0, e1, -⟩ := idx_facts t
  funext a; apply Fin.ext
  match a with
  | ⟨0, _⟩ => show win0_1.index t (0 : Fin 2) * 1024 + 1 * k.val = k.val; omega
  | ⟨1, _⟩ => show win0_1.index t (1 : Fin 2) * 4096 + 1 * f.val = f.val; omega
theorem emb2 (t : Fin cfg0.N) (f : Fin 4096) : ((cfg0.win 2).blk t).view.emb (ix2 (0 : Fin 1) f) = ix2 (0 : Fin 1) f := by
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 4096 + 1 * f.val = f.val; omega
theorem emb3 (t : Fin cfg0.N) (f : Fin 4096) (q : Fin 1024) : ((cfg0.win 3).blk t).view.emb (ix2 f q) = ix2 f q := by
  obtain ⟨-, -, -, -, -, -, e0, e1, -⟩ := idx_facts t
  funext a; apply Fin.ext
  match a with
  | ⟨0, _⟩ => show win0_3.index t (0 : Fin 2) * 4096 + 1 * f.val = f.val; omega
  | ⟨1, _⟩ => show win0_3.index t (1 : Fin 2) * 1024 + 1 * q.val = q.val; omega
theorem emb4 (t : Fin cfg0.N) (q : Fin 1024) : ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 1024 + 1 * q.val = q.val; omega

/-- The tile point t stores, at (p, q), is the flattened output's function at row 256 t + p and column q. -/
theorem tile_at (c : Dev nD) (t : Fin cfg0.N) (p : Fin 256) (q : Fin 1024) :
    k0_pay1 (F := Ideal) (iblk m c 0 t) (iblk m c 1 t) (iblk m c 2 t) (iblk m c 3 t) (iblk m c 4 t) (ix2 p q)
      = flat m c (((cfg0.win 5).blk t).view.emb (ix2 p q)) := by
  have ht := point_lt t
  have hp := p.isLt
  rw [emb5, flat_at m c _ q (⟨(t.val * 256 + p.val) / 4096, by omega⟩ : Fin 4) (⟨(t.val * 256 + p.val) % 4096, Nat.mod_lt _ (by decide)⟩ : Fin 4096)
    (by show t.val * 256 + p.val = (t.val * 256 + p.val) / 4096 * 4096 + (t.val * 256 + p.val) % 4096; omega)]
  refine Cert.KernelIdeal.Body.tile_eq (iblk m c 0 t) (iblk m c 1 t) (iblk m c 2 t) (iblk m c 3 t) (iblk m c 4 t) _ _ _ _ _ p q _ _ ?_ ?_ ?_ ?_ ?_
  · intro k
    show (V m c main_v0 : S16384x1024.Idx → EReal) (((cfg0.win 0).blk t).view.emb (ix2 p k)) = _
    rw [emb0]
    exact Cert.KernelIdeal.Arrays.xflat_apply m c _ k _ _ (by show t.val * 256 + p.val = (t.val * 256 + p.val) / 4096 * 4096 + (t.val * 256 + p.val) % 4096; omega)
  · intro k f
    show (V m c main_v2 : S1024x4096.Idx → EReal) (((cfg0.win 1).blk t).view.emb (ix2 k f)) = _
    rw [emb1]
    exact Cert.KernelIdeal.Arrays.w1t_apply m c k f
  · intro f
    show (V m c main_v5 : S1x4096.Idx → EReal) (((cfg0.win 2).blk t).view.emb (ix2 (0 : Fin 1) f)) = _
    rw [emb2]
    exact Cert.KernelIdeal.Arrays.b1row_apply m c f
  · intro f q'
    show (V m c main_v4 : S4096x1024.Idx → EReal) (((cfg0.win 3).blk t).view.emb (ix2 f q')) = _
    rw [emb3]
    exact Cert.KernelIdeal.Arrays.w2t_apply m c f q'
  · intro q'
    show (V m c main_v6 : S1x1024.Idx → EReal) (((cfg0.win 4).blk t).view.emb (ix2 (0 : Fin 1) q')) = _
    rw [emb4]
    exact Cert.KernelIdeal.Arrays.b2row_apply m c q'

/-- What point t writes back is block t of the flattened output's function. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S256x1024) hz, View.ld_unit_zero (S := S1024x4096) hz, View.ld_unit_zero (S := S1x4096) hz,
    View.ld_unit_zero (S := S4096x1024) hz, View.ld_unit_zero (S := S1x1024) hz]
  funext j
  obtain ⟨p, q, rfl⟩ : ∃ (p : Fin 256) (q : Fin 1024), j = ix2 p q := ⟨j 0, j 1, eq_ix2 j⟩
  exact tile_at m c t p q

/-- An index of the flattened output is in point t's block iff each coordinate is in the block's range on its axis. -/
theorem mem_blk (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v7).slice (win0_5.rect t)).set ↔ _
  rw [View.set_slice_whole, Rect.mem_set_unit]
  exact Iff.rfl

/-- Every entry of the flattened output is in some point's block: row r is in point r / 256's. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : grid0.N = 64 := N_0
  have ht : (i 0).val / 256 < cfg0.N := by show (i 0).val / 256 < grid0.N; rw [hN]; omega
  refine ⟨⟨(i 0).val / 256, ht⟩, flush0_5 _, ?_⟩
  rw [mem_blk]
  obtain ⟨-, -, -, -, -, -, -, -, -, -, e0, e1⟩ := idx_facts ⟨(i 0).val / 256, ht⟩
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e1]; omega

/-- After the region the flattened output is that function. -/
theorem final (c : Dev nD) : (dats m 0 c).arrAt 5 cfg0.N = flat m c :=
  (dats m 0 c).arrAt_eq_of_cover 5 (flat m c) (fun t _ => flushed_eq m c t) cover

/-- What the last operation reads: the region's output array, which is that function. -/
theorem flatArr (c : Dev nD) :
    Pipeline.withArrays spec0 c (V0 m c) (fun w => (dats m 0 c).arrAt w cfg0.N) (Proc.devRef .tc main_v7) = flat m c :=
  (Pipeline.withArrays_arr spec0 launch0.win.arr_inj c _ _ 5).trans (final m c)

/-- The program's result: the rows folded back, the feed-forward block's function of the five arrays. -/
theorem result_eq (c : Dev nD) :
    Pipeline.afterTail₀ cfgs (dats m) 0 (V0 m) [hostOps1] c main_v8
      = Cert.Ffn.out (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v8) = _
  after_results
  funext i
  obtain ⟨b, s, h, rfl⟩ : ∃ (b : Fin 4) (s : Fin 4096) (h : Fin 1024), i = ix3 b s h := ⟨i 0, i 1, i 2, eq_ix3 i⟩
  have hb := b.isLt
  have hs := s.isLt
  show shapeCast S4x4096x1024 (Pipeline.withArrays spec0 c (V0 m c) (fun w => (dats m 0 c).arrAt w cfg0.N) (Proc.devRef .tc main_v7))
      shapeCasts_S16384x1024_S4x4096x1024 (ix3 b s h) = _
  rw [flatArr m c, Cert.Ffn.out_ix3]
  refine (shapeCast_apply _ _ (ix3 b s h) (ix2 (⟨b.val * 4096 + s.val, by omega⟩ : Fin 16384) h) ?_).trans (flat_at m c _ h b s rfl)
  show (S16384x1024.rowMajor (ix2 (⟨b.val * 4096 + s.val, by omega⟩ : Fin 16384) h)).val = (S4x4096x1024.rowMajor (ix3 b s h)).val
  rw [Shape.rowMajor_val_three, Shape.rowMajor_val_two]
  rfl

/-- The kernel's program runs, ends with its result at the feed-forward block's function of its arguments, and leaves
    the arguments as they were. -/
theorem run : θ_run defs (onTc (τ := τ) (main (F := Ideal))) ⟨m, fun _ => 0, ρ⟩ fun r => ∀ c : Dev nD,
      r.2.mem ((c.tc : Thread nD τ).loc main_v8)
        = Cert.Ffn.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FfnValue

end
-- ==== Proof.lean ====
/-
  A two-layer feed-forward block, tiled over rows, against its plain reference.

  The reference computes, for each token (b, s) of x [4, 4096, 1024] and each output feature h,

      out[b, s, h] = ∑ f < 4096, max (∑ k < 1024, x[b, s, k] · W1[f, k] + b1[f]) 0 · W2[h, f] + b2[h],

  by two contractions over the last axes of x and the weights (stored [out, in]) with the biases broadcast. The kernel's
  program flattens x to 16384 rows, transposes both weights once, and runs 64 tiles of 256 rows; a tile multiplies its rows
  by the transposed W1 into a zero accumulator, adds the bias row, rectifies, multiplies by the transposed W2 into a zero
  accumulator, adds the second bias row and stores; the rows are folded back at the end. On the extended reals a change of
  float format is the identity and a product into a zero accumulator is the exact sum, so the tile at row r, column q holds
  the reference's value for the token (r / 4096, r % 4096) at q: the same sums, in the same grouping. No law of arithmetic is
  needed to join the two sides, and the inputs' finiteness is never used.

  The three frames are the generated ones (the reference's is its run with the result dropped); the idealization rewrote no
  operation, so there is nothing to preserve; the value claim sets the kernel program's run (Proof/KernelValue.lean) beside
  the reference's run, whose result is the same function of the five arrays (Proof/RefIsSpec.lean).
-/
import proofs.«118304_j70214125355099_1_alg».proof.Defs
import proofs.«118304_j70214125355099_1_alg».proof.Proof.Gen.Kernel
import proofs.«118304_j70214125355099_1_alg».proof.Proof.Gen.Kernel.Skeleton
import proofs.«118304_j70214125355099_1_alg».proof.Proof.Gen.Kernel.Launch
import proofs.«118304_j70214125355099_1_alg».proof.Proof.Gen.Kernel.Points
import proofs.«118304_j70214125355099_1_alg».proof.Proof.Gen.Kernel.Frame
import proofs.«118304_j70214125355099_1_alg».proof.Proof.Gen.KernelIdeal
import proofs.«118304_j70214125355099_1_alg».proof.Proof.Gen.KernelIdeal.Skeleton
import proofs.«118304_j70214125355099_1_alg».proof.Proof.Gen.KernelIdeal.Launch
import proofs.«118304_j70214125355099_1_alg».proof.Proof.Gen.KernelIdeal.Points
import proofs.«118304_j70214125355099_1_alg».proof.Proof.Gen.KernelIdeal.Frame
import proofs.«118304_j70214125355099_1_alg».proof.Proof.Gen.ReferenceIdeal
import proofs.«118304_j70214125355099_1_alg».proof.Proof.Gen.ReferenceIdeal.Run
import proofs.«118304_j70214125355099_1_alg».proof.Proof.Gen.ReferenceIdeal.Read
import proofs.«118304_j70214125355099_1_alg».proof.Proof.Gen.Pre_finite_inputs
import proofs.«118304_j70214125355099_1_alg».proof.Proof.RefIsSpec
import proofs.«118304_j70214125355099_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arrays, both programs end with the feed-forward block's function of them. -/
theorem algebraic : Cert.algebraic_KernelIdeal_ReferenceIdeal := by
  intro m ρ m' ρ' _ hagree
  refine ⟨_, Cert.KernelIdeal.FfnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
